-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S16x1024x2048 : S_.BroadcastsInDim S16x1024x2048 (![] : Fin 0 → Fin S16x1024x2048.rank)
  reducesTo_S16x1024x2048_S_d0_1_2 : S16x1024x2048.ReducesTo [0, 1, 2] S_
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn_part1 {F : FTy → Type} [FloatOps F] (main_v13 : IVec S_ 1) (main_v16 : IVec S16x2048x1024 1) : IVec S_ 1 :=
  let main_c_5 : IVec S_ 1 := constantI S_ 1 1#1
  let main_v17 : IVec S_ 1 := (fun x v => Host.reduce IntOp.andi x v reducesTo_S16x2048x1024_S_d0_1_2 h_S_) main_v16 main_c_5
  let main_v18 : IVec S_ 1 := andi main_v13 main_v17
  main_v18

def fn {F : FTy → Type} [FloatOps F] (main_arg0 : FVec F S256x2048 .f32) (main_arg1 : FVec F S16x1024x2048 .f32) (main_arg2 : FVec F S16x1024x2048 .f32) (main_arg3 : FVec F S16x2048x1024 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S16x1024x2048 .f32 := Host.absf main_arg1
  let main_cst_0 : FVec F S_ .f32 := constant S_ .f32 0x7F800000#32
  let main_v5 : FVec F S16x1024x2048 .f32 := broadcastInDim S16x1024x2048 ![] bcast_S_S16x1024x2048 main_cst_0
  let main_v6 : IVec S16x1024x2048 1 := cmpf .olt main_v4 main_v5
  let main_c_1 : IVec S_ 1 := constantI S_ 1 1#1
  let main_v7 : IVec S_ 1 := (fun x v => Host.reduce IntOp.andi x v reducesTo_S16x1024x2048_S_d0_1_2 h_S_) main_v6 main_c_1
  let main_v8 : IVec S_ 1 := andi main_v3 main_v7
  let main_v9 : FVec F S16x1024x2048 .f32 := Host.absf main_arg2
  let main_cst_2 : FVec F S_ .f32 := constant S_ .f32 0x7F800000#32
  let main_v10 : FVec F S16x1024x2048 .f32 := broadcastInDim S16x1024x2048 ![] bcast_S_S16x1024x2048 main_cst_2
  let main_v11 : IVec S16x1024x2048 1 := cmpf .olt main_v9 main_v10
  let main_c_3 : IVec S_ 1 := constantI S_ 1 1#1
  let main_v12 : IVec S_ 1 := (fun x v => Host.reduce IntOp.andi x v reducesTo_S16x1024x2048_S_d0_1_2 h_S_) main_v11 main_c_3
  let main_v13 : IVec S_ 1 := andi main_v8 main_v12
  let main_v14 : FVec F S16x2048x1024 .f32 := Host.absf main_arg3
  let main_cst_4 : FVec F S_ .f32 := constant S_ .f32 0x7F800000#32
  let main_v15 : FVec F S16x2048x1024 .f32 := broadcastInDim S16x2048x1024 ![] bcast_S_S16x2048x1024 main_cst_4
  let main_v16 : IVec S16x2048x1024 1 := cmpf .olt main_v14 main_v15
  fn_part1 (F := F) main_v13 main_v16
-- ==== Kernel.lean ====
abbrev S256x2048 : Shape := ⟨2, ![256, 2048]⟩
abbrev S16x1024x2048 : Shape := ⟨3, ![16, 1024, 2048]⟩
abbrev S16x2048x1024 : Shape := ⟨3, ![16, 2048, 1024]⟩
abbrev S16x256x2048 : Shape := ⟨3, ![16, 256, 2048]⟩
abbrev S1x512x2048 : Shape := ⟨3, ![1, 512, 2048]⟩
abbrev S1x2048x512 : Shape := ⟨3, ![1, 2048, 512]⟩
abbrev S1x256x2048 : Shape := ⟨3, ![1, 256, 2048]⟩
abbrev S512x2048 : Shape := ⟨2, ![512, 2048]⟩
abbrev S2048x512 : Shape := ⟨2, ![2048, 512]⟩
abbrev S256x512 : Shape := ⟨2, ![256, 512]⟩
abbrev S4096x2048 : Shape := ⟨2, ![4096, 2048]⟩

abbrev nBuf : Space → Nat
  | .hbm => 6
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x256x2048, .f32⟩
  | .hbm, ⟨5, _⟩ => ⟨S4096x2048, .f32⟩
  | .local _ .vmem, ⟨0, _⟩ => ⟨S256x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x2048x512, .f32⟩
  | .local _ .vmem, ⟨6, _⟩ => ⟨S1x2048x512, .f32⟩
  | .local _ .vmem, ⟨7, _⟩ => ⟨S1x256x2048, .f32⟩
  | .local _ .vmem, ⟨8, _⟩ => ⟨S1x256x2048, .f32⟩
  | .local _ .vmem, ⟨9, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  transposes_S512x2048_p1_0_S2048x512 : S512x2048.Transposes [1, 0] S2048x512
  transposes_S2048x512_p1_0_S512x2048 : S2048x512.Transposes [1, 0] S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S16x256x2048_S4096x2048 : S16x256x2048.ShapeCasts S4096x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x1024x2048.size a
  hwx0_1 : ∀ i : grid0.Coords, EltTy.bits .f32 = 32 ∨ (Rect.block (s := S16x1024x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x1024x2048.size a
  hwx0_2 : ∀ i : grid0.Coords, EltTy.bits .f32 = 32 ∨ (Rect.block (s := S16x1024x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x2048x1024.size a
  hwx0_3 : ∀ i : grid0.Coords, EltTy.bits .f32 = 32 ∨ (Rect.block (s := S16x2048x1024) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x256x2048.size a
  hwx0_4 : ∀ i : grid0.Coords, EltTy.bits .f32 = 32 ∨ (Rect.block (s := S16x256x2048) S1x256x2048.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x2048 : Shape := ⟨2, ![256, 2048]⟩
abbrev S16x1024x2048 : Shape := ⟨3, ![16, 1024, 2048]⟩
abbrev S16x2048x1024 : Shape := ⟨3, ![16, 2048, 1024]⟩
abbrev S16x1024x256 : Shape := ⟨3, ![16, 1024, 256]⟩
abbrev S16x256x1024 : Shape := ⟨3, ![16, 256, 1024]⟩
abbrev S_ : Shape := ⟨0, ![]⟩
abbrev S16x256x2048 : Shape := ⟨3, ![16, 256, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x1024x256, .f32⟩
  | .hbm, ⟨5, _⟩ => ⟨S16x256x1024, .f32⟩
  | .hbm, ⟨6, _⟩ => ⟨S16x1024x256, .f32⟩
  | .hbm, ⟨7, _⟩ => ⟨S16x256x1024, .f32⟩
  | .hbm, ⟨8, _⟩ => ⟨S16x256x1024, .f32⟩
  | .hbm, ⟨9, _⟩ => ⟨S16x256x1024, .f32⟩
  | .hbm, ⟨10, _⟩ => ⟨S_, .f32⟩
  | .hbm, ⟨11, _⟩ => ⟨S16x256x1024, .f32⟩
  | .hbm, ⟨12, _⟩ => ⟨S16x256x1024, .f32⟩
  | .hbm, ⟨13, _⟩ => ⟨S_, .f32⟩
  | .hbm, ⟨14, _⟩ => ⟨S16x256x1024, .f32⟩
  | .hbm, ⟨15, _⟩ => ⟨S16x256x1024, .f32⟩
  | .hbm, ⟨16, _⟩ => ⟨S16x256x1024, .f32⟩
  | .hbm, ⟨17, _⟩ => ⟨S16x256x1024, .f32⟩
  | .hbm, ⟨18, _⟩ => ⟨S16x256x2048, .f32⟩
  | .hbm, ⟨19, _⟩ => ⟨S4096x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  transposes_S16x1024x256_S16x256x1024_0_2_1 : S16x1024x256.Transposes [0, 2, 1] S16x256x1024
  bcast_S_S16x256x1024 : S_.BroadcastsInDim S16x256x1024 (![] : Fin 0 → Fin S16x256x1024.rank)
  shapeCasts_S16x256x2048_S4096x2048 : S16x256x2048.ShapeCasts S4096x2048
  dot_S16x1024x2048_S256x2048_S16x1024x256_2_1_01_0_n_n_wf : DotDims.WF S16x1024x2048 S256x2048 S16x1024x256 [2] [1] [0, 1] [0] [] []
  dot_S16x256x1024_S16x2048x1024_S16x256x2048_2_2_1_1_0_0_wf : DotDims.WF S16x256x1024 S16x2048x1024 S16x256x2048 [2] [2] [1] [1] [0] [0]

variable [Facts₀]

def dot_S16x1024x2048_S256x2048_S16x1024x256_2_1_01_0_n_n : DotDims S16x1024x2048 S256x2048 S16x1024x256 where
  lhsContracting := [2]
  rhsContracting := [1]
  lhsNonContracting := [0, 1]
  rhsNonContracting := [0]
  lhsBatch := []
  rhsBatch := []
  wf := dot_S16x1024x2048_S256x2048_S16x1024x256_2_1_01_0_n_n_wf
def dot_S16x256x1024_S16x2048x1024_S16x256x2048_2_2_1_1_0_0 : DotDims S16x256x1024 S16x2048x1024 S16x256x2048 where
  lhsContracting := [2]
  rhsContracting := [2]
  lhsNonContracting := [1]
  rhsNonContracting := [1]
  lhsBatch := [0]
  rhsBatch := [0]
  wf := dot_S16x256x1024_S16x2048x1024_S16x256x2048_2_2_1_1_0_0_wf

class Facts : Prop extends Facts₀ where

variable [Facts]
-- ==== Proof.Pieces.lean ====
/-
  What one run of the kernel body leaves behind, as values.

  The body keeps a running sum in a scratch block. At the first hidden tile of an expert it stores a zero block there,
  reads it back and stores `zero + contribution`; at the second tile it reads what the first tile left and stores
  `previous + contribution`, then copies the scratch into the output block. Each of these is a covering store of a whole
  block, so what the block holds afterwards is the last such store's payload.
-/
import proofs.«121653_j12223476924456_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Second tile: the scratch ends at `previous + contribution`. -/
theorem scratch_B (c : Dev nD) (i : grid0.Coords) (a2 : Memref sig .tc .vmem S256x2048 .f32) (h2 : a2.IsWhole)
    (a3 : Memref sig .tc .vmem S1x512x2048 .f32) (h3 : a3.IsWhole) (a4 : Memref sig .tc .vmem S1x512x2048 .f32) (h4 : a4.IsWhole)
    (a5 : Memref sig .tc .vmem S1x2048x512 .f32) (h5 : a5.IsWhole) (a6 : Memref sig .tc .vmem S1x256x2048 .f32) (h6 : a6.IsWhole)
    (a7 : Memref sig .tc .vmem S256x2048 .f32) (h7 : a7.IsWhole) (hc0 : ¬cond0_0 i) (hc1 : cond0_1 i)
    (x0 : Vec F S256x2048 .f32) (x1 x2 : Vec F S1x512x2048 .f32) (x3 : Vec F S1x2048x512 .f32) (xs : Vec F S256x2048 .f32) :
    sout0_B_0 c i a2 h2 a3 h3 a4 h4 a5 h5 a6 h6 a7 h7 hc0 hc1 x0 x1 x2 x3 xs = k0_pay2 x0 x1 x2 x3 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S256x2048) hz2, View.ld_unit_zero (S := S1x512x2048) hz3, View.ld_unit_zero (S := S1x2048x512) hz3]

/-- Second tile: the output block ends at a copy of the scratch, that is at `previous + contribution` with a leading unit axis. -/
theorem out_B (c : Dev nD) (i : grid0.Coords) (a2 : Memref sig .tc .vmem S256x2048 .f32) (h2 : a2.IsWhole)
    (a3 : Memref sig .tc .vmem S1x512x2048 .f32) (h3 : a3.IsWhole) (a4 : Memref sig .tc .vmem S1x512x2048 .f32) (h4 : a4.IsWhole)
    (a5 : Memref sig .tc .vmem S1x2048x512 .f32) (h5 : a5.IsWhole) (a6 : Memref sig .tc .vmem S1x256x2048 .f32) (h6 : a6.IsWhole)
    (a7 : Memref sig .tc .vmem S256x2048 .f32) (h7 : a7.IsWhole) (hc0 : ¬cond0_0 i) (hc1 : cond0_1 i)
    (x0 : Vec F S256x2048 .f32) (x1 x2 : Vec F S1x512x2048 .f32) (x3 : Vec F S1x2048x512 .f32) (xs : Vec F S256x2048 .f32) :
    out0_B_4 c i a2 h2 a3 h3 a4 h4 a5 h5 a6 h6 a7 h7 hc0 hc1 x0 x1 x2 x3 xs = k0_pay3 (k0_pay2 x0 x1 x2 x3 xs) := by
  unfold out0_B_4
  rw [View.read_writes_eq_canon _ _ _ (cover0_B_4 c i a2 h2 a3 h3 a4 h4 a5 h5 a6 h6 a7 h7 hc0 hc1 x0 x1 x2 x3 xs)]
  unfold kernelRun0_B
  dsimp only
  sl_unfold_words
  rw [View.canon_unit_zero (S := S1x256x2048) hz3, View.readCov_unit_zero (S := S256x2048) _ hz2]
  simp only [View.readAt_eq_ld, h2.read_unread, h3.read_unread, h4.read_unread, h5.read_unread, h7.read_unread,
    View.ld_unit_zero (S := S256x2048) hz2, View.ld_unit_zero (S := S1x512x2048) hz3, View.ld_unit_zero (S := S1x2048x512) hz3]

/-- First tile: the scratch ends at `zero + contribution`. -/
theorem scratch_A (c : Dev nD) (i : grid0.Coords) (a2 : Memref sig .tc .vmem S256x2048 .f32) (h2 : a2.IsWhole)
    (a3 : Memref sig .tc .vmem S1x512x2048 .f32) (h3 : a3.IsWhole) (a4 : Memref sig .tc .vmem S1x512x2048 .f32) (h4 : a4.IsWhole)
    (a5 : Memref sig .tc .vmem S1x2048x512 .f32) (h5 : a5.IsWhole) (a6 : Memref sig .tc .vmem S1x256x2048 .f32) (h6 : a6.IsWhole)
    (a7 : Memref sig .tc .vmem S256x2048 .f32) (h7 : a7.IsWhole) (hc0 : cond0_0 i) (hc1 : ¬cond0_1 i)
    (x0 : Vec F S256x2048 .f32) (x1 x2 : Vec F S1x512x2048 .f32) (x3 : Vec F S1x2048x512 .f32) :
    sout0_A_0 c i a2 h2 a3 h3 a4 h4 a5 h5 a6 h6 a7 h7 hc0 hc1 x0 x1 x2 x3 = k0_pay2 x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x2048) hz2, View.readCov_unit_zero (S := S256x2048) _ hz2]
  simp only [View.readAt_eq_ld, h2.read_unread, h3.read_unread, h4.read_unread, h5.read_unread, h7.read_unread,
    View.ld_unit_zero (S := S256x2048) hz2, View.ld_unit_zero (S := S1x512x2048) hz3, View.ld_unit_zero (S := S1x2048x512) hz3]

end Cert.KernelIdeal.Pieces

end
-- ==== Proof.Payload.lean ====
/-
  The body's arithmetic at one entry, over the extended reals.

  With the token block `x` (256 × 2048), a gate tile `g` and an up tile `u` (512 × 2048 each, under a leading unit axis)
  and a down tile `d` (2048 × 512, under a leading unit axis), one run of the body adds to the running sum, at row `r`
  and model column `h`,
      Σ_q ( G r q · logistic (G r q) · U r q ) · d h q,      G r q = Σ_k x r k · g q k,   U r q = Σ_k x r k · u q k.
  The narrowing to bf16 is the identity here, a matrix product into a zero accumulator is the plain sum of products,
  and the transposes and the unit-axis casts only rename coordinates.
-/
import proofs.«121653_j12223476924456_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ## The two products' operand indices

Both products contract the left operand's axis 1 with the right operand's axis 0; the result's axes are the left
operand's axis 0 and the right operand's axis 1. -/

theorem up_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem up_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem up_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem up_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

theorem dn_lhs_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem dn_lhs_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem dn_rhs_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem dn_rhs_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- A (256 × 2048) · (2048 × 512) product into the zero block, at entry (r, q): the sum over the 2048 shared columns. -/
theorem matmul_up_apply {φ₁ φ₂ : FTy} (l : FVec Ideal S256x2048 φ₁) (w : FVec Ideal S2048x512 φ₂) (r : Fin 256) (q : Fin 512) :
    matmul dot_S256x2048_S2048x512_S256x512_1_0_0_1_n_n none l w (constant (F := Ideal) S256x512 .f32 0x00000000#32) (ix2 r q)
      = ∑ k : Fin 2048, l (ix2 r k) * w (ix2 k q) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r q) ((contrEquiv1 dot_S256x2048_S2048x512_S256x512_1_0_0_1_n_n 2048 rfl rfl).symm k) = ix2 r k := funext fun a => Fin.ext (by
    match a with
    | ⟨0, _⟩ => exact up_lhs_0 _ _
    | ⟨1, _⟩ => exact (up_lhs_1 _ _).trans hk)
  have er : dot_S256x2048_S2048x512_S256x512_1_0_0_1_n_n.rhsIdx (ix2 r q) ((contrEquiv1 dot_S256x2048_S2048x512_S256x512_1_0_0_1_n_n 2048 rfl rfl).symm k) = ix2 k q := funext fun a => Fin.ext (by
    match a with
    | ⟨0, _⟩ => exact (up_rhs_0 _ _).trans hk
    | ⟨1, _⟩ => exact up_rhs_1 _ _)
  rw [el, er]

/-- A (256 × 512) · (512 × 2048) product into the zero block, at entry (r, h): the sum over the 512 shared columns. -/
theorem matmul_dn_apply {φ₁ φ₂ : FTy} (l : FVec Ideal S256x512 φ₁) (w : FVec Ideal S512x2048 φ₂) (r : Fin 256) (h : Fin 2048) :
    matmul dot_S256x512_S512x2048_S256x2048_1_0_0_1_n_n none l w (constant (F := Ideal) S256x2048 .f32 0x00000000#32) (ix2 r h)
      = ∑ q : Fin 512, l (ix2 r q) * w (ix2 q h) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 r h) ((contrEquiv1 dot_S256x512_S512x2048_S256x2048_1_0_0_1_n_n 512 rfl rfl).symm k) = ix2 r k := funext fun a => Fin.ext (by
    match a with
    | ⟨0, _⟩ => exact dn_lhs_0 _ _
    | ⟨1, _⟩ => exact (dn_lhs_1 _ _).trans hk)
  have er : dot_S256x512_S512x2048_S256x2048_1_0_0_1_n_n.rhsIdx (ix2 r h) ((contrEquiv1 dot_S256x512_S512x2048_S256x2048_1_0_0_1_n_n 512 rfl rfl).symm k) = ix2 k h := funext fun a => Fin.ext (by
    match a with
    | ⟨0, _⟩ => exact (dn_rhs_0 _ _).trans hk
    | ⟨1, _⟩ => exact dn_rhs_1 _ _)
  rw [el, er]

/-! ## The operands as the body lays them out -/

variable {F : FTy → Type} [FloatOps F]

/-- A projection tile (gate or up) as the right operand of the first products: unit axis dropped, narrowed, transposed. -/
def projT (w : Vec F S1x512x2048 .f32) : FVec F S2048x512 .bf16 :=
  transpose S2048x512 [1, 0] (truncf .bf16 (shapeCast S512x2048 w shapeCasts_S1x512x2048_S512x2048) bitsLt_bf16_f32) transposes_S512x2048_p1_0_S2048x512

/-- The down tile as the right operand of the last product: unit axis dropped, narrowed, transposed. -/
def downT (d : Vec F S1x2048x512 .f32) : FVec F S512x2048 .bf16 :=
  transpose S512x2048 [1, 0] (truncf .bf16 (shapeCast S2048x512 d shapeCasts_S1x2048x512_S2048x512) bitsLt_bf16_f32) transposes_S2048x512_p1_0_S512x2048

/-- Tokens against a projection tile: `x · wᵀ` into the zero block. -/
def projBlk (x : Vec F S256x2048 .f32) (w : Vec F S1x512x2048 .f32) : FVec F S256x512 .f32 :=
  matmul dot_S256x2048_S2048x512_S256x512_1_0_0_1_n_n none (truncf .bf16 x bitsLt_bf16_f32) (projT w) (constant S256x512 .f32 0x00000000#32)

/-- The gated hidden block, narrowed: `gate · logistic(gate) · up`. -/
def hiddenBlk (x : Vec F S256x2048 .f32) (g u : Vec F S1x512x2048 .f32) : FVec F S256x512 .bf16 :=
  truncf .bf16 (mulf (mulf (projBlk x g) (logistic (projBlk x g))) (projBlk x u)) bitsLt_bf16_f32

/-- The body's covering store is the running sum plus the hidden block against the down tile. -/
theorem pay2_eq (x : Vec F S256x2048 .f32) (g u : Vec F S1x512x2048 .f32) (d : Vec F S1x2048x512 .f32) (acc : Vec F S256x2048 .f32) :
    k0_pay2 x g u d acc
      = addf acc (matmul dot_S256x512_S512x2048_S256x2048_1_0_0_1_n_n none (hiddenBlk x g u) (downT d) (constant S256x2048 .f32 0x00000000#32)) := by
  unfold k0_pay2
  dsimp only
  exact shapeCast_self _ _

/-- The reset stores the zero block. -/
theorem pay1_apply (j : S256x2048.Idx) : (k0_pay1 (F := Ideal)) j = 0 := by
  unfold k0_pay1
  refine (congrFun (shapeCast_self _ _) j).trans ?_
  exact Ideal.ofBits_zero_f32

/-- The copy into the output block adds a leading unit axis. -/
theorem pay3_apply (v : Vec F S256x2048 .f32) (r : Fin 256) (h : Fin 2048) :
    k0_pay3 v (ix3 (0 : Fin 1) r h) = v (ix2 r h) := by
  unfold k0_pay3
  exact shapeCast_apply v shapeCasts_S256x2048_S1x256x2048 (ix3 (0 : Fin 1) r h) (ix2 r h)
    (by rewrite [Shape.rowMajor_val_three, Shape.rowMajor_val_two]; show r.val * 2048 + h.val = ((0 : Fin 1).val * 256 + r.val) * 2048 + h.val; simp)

/-! ## At an entry, over the extended reals -/

/-- The right operand of the first products at (k, q) is the tile at (0, q, k). -/
theorem projT_apply (w : Vec Ideal S1x512x2048 .f32) (k : Fin 2048) (q : Fin 512) :
    projT w (ix2 k q) = w (ix3 (0 : Fin 1) q k) := by
  unfold projT
  refine (transpose_apply [1, 0] _ transposes_S512x2048_p1_0_S2048x512 (ix2 k q) (ix2 q k) (fun b => match b with
    | ⟨0, _⟩ => rfl
    | ⟨1, _⟩ => rfl)).trans ?_
  show shapeCast S512x2048 w shapeCasts_S1x512x2048_S512x2048 (ix2 q k) = _
  exact shapeCast_apply w shapeCasts_S1x512x2048_S512x2048 (ix2 q k) (ix3 (0 : Fin 1) q k)
    (by rewrite [Shape.rowMajor_val_three, Shape.rowMajor_val_two]; show ((0 : Fin 1).val * 512 + q.val) * 2048 + k.val = q.val * 2048 + k.val; simp)

/-- The right operand of the last product at (q, h) is the tile at (0, h, q). -/
theorem downT_apply (d : Vec Ideal S1x2048x512 .f32) (q : Fin 512) (h : Fin 2048) :
    downT d (ix2 q h) = d (ix3 (0 : Fin 1) h q) := by
  unfold downT
  refine (transpose_apply [1, 0] _ transposes_S2048x512_p1_0_S512x2048 (ix2 q h) (ix2 h q) (fun b => match b with
    | ⟨0, _⟩ => rfl
    | ⟨1, _⟩ => rfl)).trans ?_
  show shapeCast S2048x512 d shapeCasts_S1x2048x512_S2048x512 (ix2 h q) = _
  exact shapeCast_apply d shapeCasts_S1x2048x512_S2048x512 (ix2 h q) (ix3 (0 : Fin 1) h q)
    (by rewrite [Shape.rowMajor_val_three, Shape.rowMajor_val_two]; show ((0 : Fin 1).val * 2048 + h.val) * 512 + q.val = h.val * 512 + q.val; simp)

/-- One entry of tokens against a projection tile. -/
def projAt (x : Vec Ideal S256x2048 .f32) (w : Vec Ideal S1x512x2048 .f32) (r : Fin 256) (q : Fin 512) : EReal :=
  ∑ k : Fin 2048, x (ix2 r k) * w (ix3 (0 : Fin 1) q k)

theorem projBlk_apply (x : Vec Ideal S256x2048 .f32) (w : Vec Ideal S1x512x2048 .f32) (r : Fin 256) (q : Fin 512) :
    projBlk x w (ix2 r q) = projAt x w r q := by
  unfold projBlk projAt
  refine (matmul_up_apply _ _ r q).trans ?_
  refine Finset.sum_congr rfl fun k _ => ?_
  rw [projT_apply]
  rfl

/-- One entry of the gated hidden block. -/
def hiddenAt (x : Vec Ideal S256x2048 .f32) (g u : Vec Ideal S1x512x2048 .f32) (r : Fin 256) (q : Fin 512) : EReal :=
  projAt x g r q * Ideal.logistic (projAt x g r q) * projAt x u r q

theorem hiddenBlk_apply (x : Vec Ideal S256x2048 .f32) (g u : Vec Ideal S1x512x2048 .f32) (r : Fin 256) (q : Fin 512) :
    hiddenBlk x g u (ix2 r q) = hiddenAt x g u r q := by
  unfold hiddenBlk hiddenAt
  show (projBlk x g (ix2 r q) * Ideal.logistic (projBlk x g (ix2 r q))) * projBlk x u (ix2 r q) = _
  rw [projBlk_apply, projBlk_apply]

/-- What one run of the body adds at (r, h). -/
def tileAt (x : Vec Ideal S256x2048 .f32) (g u : Vec Ideal S1x512x2048 .f32) (d : Vec Ideal S1x2048x512 .f32) (r : Fin 256) (h : Fin 2048) : EReal :=
  ∑ q : Fin 512, hiddenAt x g u r q * d (ix3 (0 : Fin 1) h q)

/-- The covering store at (r, h): the running sum there plus this run's part. -/
theorem pay2_apply (x : Vec Ideal S256x2048 .f32) (g u : Vec Ideal S1x512x2048 .f32) (d : Vec Ideal S1x2048x512 .f32)
    (acc : Vec Ideal S256x2048 .f32) (r : Fin 256) (h : Fin 2048) :
    k0_pay2 x g u d acc (ix2 r h) = acc (ix2 r h) + tileAt x g u d r h := by
  rw [pay2_eq]
  show acc (ix2 r h) + matmul dot_S256x512_S512x2048_S256x2048_1_0_0_1_n_n none (hiddenBlk x g u) (downT d) (constant (F := Ideal) S256x2048 .f32 0x00000000#32) (ix2 r h) = _
  rw [matmul_dn_apply]
  unfold tileAt
  refine congrArg (acc (ix2 r h) + ·) (Finset.sum_congr rfl fun q _ => ?_)
  rw [hiddenBlk_apply, downT_apply]

end Cert.KernelIdeal.Payload

end
-- ==== Proof.Spec.lean ====
/-
  What both programs compute, stated once over the extended reals.

  For each of 16 experts `e`, every one of the 256 token rows `t` goes through a gated feed-forward layer:
  `gate = x · w_gate[e]ᵀ` and `up = x · w_up[e]ᵀ` (1024 columns each, contracting the 2048 model columns),
  `hidden = gate · logistic(gate) · up`, and `out[e] = hidden · w_down[e]ᵀ` (contracting the 1024 hidden columns).
  The kernel walks the hidden columns in two tiles of 512 and adds the two partial products into a zeroed
  accumulator; the reference contracts all 1024 at once. Over the extended reals addition is commutative and
  associative with unit 0, so `(0 + tile₀) + tile₁` is the whole sum: no finiteness is needed.
-/
import Idealize.ShloMosaic.PureOps.Ideal
import Idealize.ShloMosaic.Lib.ValueIdx

noncomputable section

open scoped BigOperators
open Idealize.ShloMosaic Idealize.ShloMosaic.ValueIdx

namespace Cert.Moe

/-- The token matrix, an expert-stacked projection (gate or up), the expert-stacked down projection, the result. -/
abbrev STok : Shape := ⟨2, ![256, 2048]⟩
abbrev SProj : Shape := ⟨3, ![16, 1024, 2048]⟩
abbrev SDown : Shape := ⟨3, ![16, 2048, 1024]⟩
abbrev SOut : Shape := ⟨3, ![16, 256, 2048]⟩

variable (x : STok.Idx → EReal) (wg wu : SProj.Idx → EReal) (wd : SDown.Idx → EReal)

/-- Row `t` of the tokens against row `i` of expert `e`'s projection matrix `w`: one entry of `x · w[e]ᵀ`. -/
def proj (w : SProj.Idx → EReal) (e : Fin 16) (t : Fin 256) (i : Fin 1024) : EReal :=
  ∑ k : Fin 2048, x (ix2 t k) * w (ix3 e i k)

/-- The gated hidden activation: `gate · logistic(gate) · up`. -/
def hidden (e : Fin 16) (t : Fin 256) (i : Fin 1024) : EReal :=
  proj x wg e t i * Ideal.logistic (proj x wg e t i) * proj x wu e t i

/-- One entry of expert `e`'s output: the hidden row against row `h` of the down projection. -/
def out (e : Fin 16) (t : Fin 256) (h : Fin 2048) : EReal :=
  ∑ i : Fin 1024, hidden x wg wu e t i * wd (ix3 e h i)

/-- The result as an array over (expert, token, model column). -/
def outArr : SOut.Idx → EReal := fun j => out x wg wu wd (j 0) (j 1) (j 2)

/-- Hidden column `q` of tile `b` (tiles of 512 columns). -/
def col (b : Fin 2) (q : Fin 512) : Fin 1024 := ⟨b.val * 512 + q.val, by have := b.isLt; have := q.isLt; omega⟩

/-- The part of `out` that tile `b` of the hidden columns contributes. -/
def tileSum (e : Fin 16) (t : Fin 256) (h : Fin 2048) (b : Fin 2) : EReal :=
  ∑ q : Fin 512, hidden x wg wu e t (col b q) * wd (ix3 e h (col b q))

/-- The two tiles, added in order into a zero accumulator, are the whole contraction. -/
theorem out_eq_tiles (e : Fin 16) (t : Fin 256) (h : Fin 2048) :
    out x wg wu wd e t h = (0 + tileSum x wg wu wd e t h 0) + tileSum x wg wu wd e t h 1 := by
  unfold out tileSum
  rw [zero_add]
  have hs := Fin.sum_univ_add (a := 512) (b := 512) (fun i : Fin (512 + 512) => hidden x wg wu e t i * wd (ix3 e h i))
  have e0 : ∀ q : Fin 512, col 0 q = Fin.castAdd 512 q := fun q => Fin.ext (by simp [col])
  have e1 : ∀ q : Fin 512, col 1 q = Fin.natAdd 512 q := fun q => Fin.ext (by simp [col]; omega)
  simp only [e0, e1]
  exact hs

end Cert.Moe

end
-- ==== Proof.Sweep.lean ====
/-
  The kernel's result array, read off its run over the grid.

  The grid has 32 points: point `t` works on expert `t / 2` and hidden tile `t % 2`. At an even point the body resets
  the running sum and adds the first tile's part; at the odd point after it the body adds the second tile's part and the
  output block, which is the expert's whole 256 × 2048 slab, is written back. So slab `e` of the result array is
  `(0 + tile₀) + tile₁`, and the sixteen slabs cover the array.
-/
import proofs.«121653_j12223476924456_1_alg».proof.Proof.Gen.KernelIdeal.Frame
import proofs.«121653_j12223476924456_1_alg».proof.Proof.Pieces
import proofs.«121653_j12223476924456_1_alg».proof.Proof.Payload
import proofs.«121653_j12223476924456_1_alg».proof.Proof.Spec
import Idealize.ShloMosaic.Lib.Pipeline.Value
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen Cert.KernelIdeal.Pieces Cert.KernelIdeal.Payload

section AnyInstance

variable {F : FTy → Type} [FloatOps F]
variable (m : (ℓ : Loc nD τ sig) → Buf (Elt F) ℓ)

/-- The four input blocks at a point and the four argument arrays, at their literal shapes. -/
abbrev tokBlk (c : Dev nD) (t : Fin cfg0.N) : Vec F S256x2048 .f32 := iblk m c 0 t
abbrev gateBlk (c : Dev nD) (t : Fin cfg0.N) : Vec F S1x512x2048 .f32 := iblk m c 1 t
abbrev upBlk (c : Dev nD) (t : Fin cfg0.N) : Vec F S1x512x2048 .f32 := iblk m c 2 t
abbrev downBlk (c : Dev nD) (t : Fin cfg0.N) : Vec F S1x2048x512 .f32 := iblk m c 3 t
abbrev tokArr (c : Dev nD) : Vec F S256x2048 .f32 := V m c main_arg0
abbrev gateArr (c : Dev nD) : Vec F S16x1024x2048 .f32 := V m c main_arg1
abbrev upArr (c : Dev nD) : Vec F S16x1024x2048 .f32 := V m c main_arg2
abbrev downArr (c : Dev nD) : Vec F S16x2048x1024 .f32 := V m c main_arg3

/-- After an even point (an expert's first tile) the running sum is the zero block plus that tile's part. -/
theorem scratch_even (c : Dev nD) (t : Fin cfg0.N) (h0 : t.val % 2 = 0) :
    (outsAt0 m c t.val t.isLt).2
      = k0_pay2 (tokBlk m c t) (gateBlk m c t) (upBlk m c t) (downBlk m c t) k0_pay1 := by
  have h1 : ¬t.val % 2 = 1 := by omega
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After an odd point (the second tile) the output block is the running sum the point before left plus this tile's
    part, under a leading unit axis. -/
theorem out_odd (c : Dev nD) (t : Fin cfg0.N) (h1 : t.val % 2 = 1) :
    (outsAt0 m c t.val t.isLt).1
      = k0_pay3 (k0_pay2 (tokBlk m c t) (gateBlk m c t) (upBlk m c t) (downBlk m c t)
          (outsAt0 m c (t.val - 1) (Nat.lt_of_le_of_lt (Nat.sub_le _ _) t.isLt)).2) := by
  have h0 : ¬t.val % 2 = 0 := by omega
  rw [outsAt0_B m c t h0 h1]
  dsimp only
  exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- The point before an odd point. -/
def pred (t : Fin cfg0.N) : Fin cfg0.N := ⟨t.val - 1, Nat.lt_of_le_of_lt (Nat.sub_le _ _) t.isLt⟩

/-- So after an odd point the output block is `(zero + first tile's part) + second tile's part`. -/
theorem out_odd_two (c : Dev nD) (t : Fin cfg0.N) (h1 : t.val % 2 = 1) :
    (outsAt0 m c t.val t.isLt).1
      = k0_pay3 (k0_pay2 (tokBlk m c t) (gateBlk m c t) (upBlk m c t) (downBlk m c t)
          (k0_pay2 (tokBlk m c (pred t)) (gateBlk m c (pred t)) (upBlk m c (pred t)) (downBlk m c (pred t)) k0_pay1)) := by
  rw [out_odd m c t h1]
  have h := scratch_even m c (pred t) (by show (t.val - 1) % 2 = 0; omega)
  exact congrArg (fun xs => k0_pay3 (k0_pay2 (tokBlk m c t) (gateBlk m c t) (upBlk m c t) (downBlk m c t) xs)) h

/-- Which block of each array a point's windows hold (decided over the grid): the tokens whole; the gate and up
    projections at (expert, tile, 0); the down projection at (expert, 0, tile); the result at (expert, 0, 0). -/
theorem idx_facts : ∀ t : Fin cfg0.N,
    win0_0.index t (0 : Fin 2) = 0 ∧ win0_0.index t (1 : Fin 2) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = t.val % 2
    ∧ win0_4.index t (0 : Fin 3) = t.val / 2 ∧ win0_4.index t (1 : Fin 3) = 0 ∧ win0_4.index t (2 : Fin 3) = 0 :=
  (by decide +kernel : ∀ t : Fin grid0.N, _)

/-- The expert and the hidden tile a point works on. -/
def expertOf (t : Fin cfg0.N) : Fin 16 := ⟨t.val / 2, by have := t.isLt; have : cfg0.N = 32 := N_0; omega⟩
def tileOf (t : Fin cfg0.N) : Fin 2 := ⟨t.val % 2, by omega⟩

/-- The token block is the token array. -/
theorem tokBlk_apply (c : Dev nD) (t : Fin cfg0.N) (r : Fin 256) (k : Fin 2048) :
    tokBlk m c t (ix2 r k) = tokArr m c (ix2 r k) := by
  obtain ⟨e0, e1, -⟩ := idx_facts t
  show V m c main_arg0 (((cfg0.win 0).blk t).view.emb (ix2 r k)) = V m c main_arg0 (ix2 r k)
  refine congrArg (V m c main_arg0) (funext fun a => Fin.ext ?_)
  match a with
  | ⟨0, _⟩ => show win0_0.index t (0 : Fin 2) * 256 + 1 * r.val = r.val; omega
  | ⟨1, _⟩ => show win0_0.index t (1 : Fin 2) * 2048 + 1 * k.val = k.val; omega

/-- The gate block is rows `tile · 512 …` of the expert's gate projection. -/
theorem gateBlk_apply (c : Dev nD) (t : Fin cfg0.N) (q : Fin 512) (k : Fin 2048) :
    gateBlk m c t (ix3 (0 : Fin 1) q k) = gateArr m c (ix3 (expertOf t) (Moe.col (tileOf t) q) k) := by
  obtain ⟨-, -, e0, e1, e2, -⟩ := idx_facts t
  show V m c main_arg1 (((cfg0.win 1).blk t).view.emb (ix3 (0 : Fin 1) q k)) = V m c main_arg1 (ix3 (expertOf t) (Moe.col (tileOf t) q) k)
  refine congrArg (V m c main_arg1) (funext fun a => Fin.ext ?_)
  match a with
  | ⟨0, _⟩ => show win0_1.index t (0 : Fin 3) * 1 + 1 * 0 = t.val / 2; omega
  | ⟨1, _⟩ => show win0_1.index t (1 : Fin 3) * 512 + 1 * q.val = t.val % 2 * 512 + q.val; omega
  | ⟨2, _⟩ => show win0_1.index t (2 : Fin 3) * 2048 + 1 * k.val = k.val; omega

/-- The up block likewise. -/
theorem upBlk_apply (c : Dev nD) (t : Fin cfg0.N) (q : Fin 512) (k : Fin 2048) :
    upBlk m c t (ix3 (0 : Fin 1) q k) = upArr m c (ix3 (expertOf t) (Moe.col (tileOf t) q) k) := by
  obtain ⟨-, -, -, -, -, e0, e1, e2, -⟩ := idx_facts t
  show V m c main_arg2 (((cfg0.win 2).blk t).view.emb (ix3 (0 : Fin 1) q k)) = V m c main_arg2 (ix3 (expertOf t) (Moe.col (tileOf t) q) k)
  refine congrArg (V m c main_arg2) (funext fun a => Fin.ext ?_)
  match a with
  | ⟨0, _⟩ => show win0_2.index t (0 : Fin 3) * 1 + 1 * 0 = t.val / 2; omega
  | ⟨1, _⟩ => show win0_2.index t (1 : Fin 3) * 512 + 1 * q.val = t.val % 2 * 512 + q.val; omega
  | ⟨2, _⟩ => show win0_2.index t (2 : Fin 3) * 2048 + 1 * k.val = k.val; omega

/-- The down block is columns `tile · 512 …` of the expert's down projection. -/
theorem downBlk_apply (c : Dev nD) (t : Fin cfg0.N) (h : Fin 2048) (q : Fin 512) :
    downBlk m c t (ix3 (0 : Fin 1) h q) = downArr m c (ix3 (expertOf t) h (Moe.col (tileOf t) q)) := by
  obtain ⟨-, -, -, -, -, -, -, -, e0, e1, e2, -⟩ := idx_facts t
  show V m c main_arg3 (((cfg0.win 3).blk t).view.emb (ix3 (0 : Fin 1) h q)) = V m c main_arg3 (ix3 (expertOf t) h (Moe.col (tileOf t) q))
  refine congrArg (V m c main_arg3) (funext fun a => Fin.ext ?_)
  match a with
  | ⟨0, _⟩ => show win0_3.index t (0 : Fin 3) * 1 + 1 * 0 = t.val / 2; omega
  | ⟨1, _⟩ => show win0_3.index t (1 : Fin 3) * 2048 + 1 * h.val = h.val; omega
  | ⟨2, _⟩ => show win0_3.index t (2 : Fin 3) * 512 + 1 * q.val = t.val % 2 * 512 + q.val; omega

end AnyInstance

section AtIdeal

variable (m : (ℓ : Loc nD τ sig) → Buf (Elt Ideal) ℓ) (ρ : Dev nD → PrngReg)

/-- A point's gate product is the specification's, at the point's expert and at the tile's hidden columns. -/
theorem projAt_gate (c : Dev nD) (t : Fin cfg0.N) (r : Fin 256) (q : Fin 512) :
    projAt (tokBlk m c t) (gateBlk m c t) r q
      = Moe.proj (tokArr m c) (gateArr m c) (expertOf t) r (Moe.col (tileOf t) q) := by
  unfold projAt Moe.proj
  exact Finset.sum_congr rfl fun k _ => by rw [tokBlk_apply, gateBlk_apply]

/-- The same for the up product. -/
theorem projAt_up (c : Dev nD) (t : Fin cfg0.N) (r : Fin 256) (q : Fin 512) :
    projAt (tokBlk m c t) (upBlk m c t) r q
      = Moe.proj (tokArr m c) (upArr m c) (expertOf t) r (Moe.col (tileOf t) q) := by
  unfold projAt Moe.proj
  exact Finset.sum_congr rfl fun k _ => by rw [tokBlk_apply, upBlk_apply]

/-- What a point's run adds is the specification's tile sum, at the point's expert and tile. -/
theorem tileAt_eq (c : Dev nD) (t : Fin cfg0.N) (r : Fin 256) (h : Fin 2048) :
    tileAt (tokBlk m c t) (gateBlk m c t) (upBlk m c t) (downBlk m c t) r h
      = Moe.tileSum (tokArr m c) (gateArr m c) (upArr m c) (downArr m c) (expertOf t) r h (tileOf t) := by
  unfold tileAt Moe.tileSum hiddenAt Moe.hidden
  exact Finset.sum_congr rfl fun q _ => by rw [projAt_gate, projAt_up, downBlk_apply]

/-- The specification's array of the argument arrays as the region finds them. -/
abbrev result (c : Dev nD) : Vec Ideal S16x256x2048 .f32 :=
  Moe.outArr (tokArr m c) (gateArr m c) (upArr m c) (downArr m c)

/-- What an odd point writes back is its expert's slab of the specification's array. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  show (cfg0.win 4).cut (grid0.coords t) ((dats m 0 c).after 4 t) = _
  rw [after0_4, out_odd_two m c t h1]
  funext j
  obtain ⟨z, r, h, rfl⟩ : ∃ (z : Fin 1) (r : Fin 256) (h : Fin 2048), j = ix3 z r h := ⟨j 0, j 1, j 2, eq_ix3 j⟩
  obtain rfl : z = 0 := Subsingleton.elim _ _
  obtain ⟨-, -, -, -, -, -, -, -, -, -, -, e0, e1, e2⟩ := idx_facts t
  have hemb : ((cfg0.win 4).blk t).view.emb (ix3 (0 : Fin 1) r h) = ix3 (expertOf t) r h := funext fun a => Fin.ext (by
    match a with
    | ⟨0, _⟩ => show win0_4.index t (0 : Fin 3) * 1 + 1 * 0 = t.val / 2; omega
    | ⟨1, _⟩ => show win0_4.index t (1 : Fin 3) * 256 + 1 * r.val = r.val; omega
    | ⟨2, _⟩ => show win0_4.index t (2 : Fin 3) * 2048 + 1 * h.val = h.val; omega)
  show k0_pay3 (k0_pay2 (tokBlk m c t) (gateBlk m c t) (upBlk m c t) (downBlk m c t)
      (k0_pay2 (tokBlk m c (pred t)) (gateBlk m c (pred t)) (upBlk m c (pred t)) (downBlk m c (pred t)) (k0_pay1 (F := Ideal)))) (ix3 (0 : Fin 1) r h)
    = result m c (((cfg0.win 4).blk t).view.emb (ix3 (0 : Fin 1) r h))
  rw [hemb, pay3_apply, pay2_apply, pay2_apply, pay1_apply, tileAt_eq, tileAt_eq]
  have he : expertOf (pred t) = expertOf t := Fin.ext (by show (t.val - 1) / 2 = t.val / 2; omega)
  have hb0 : tileOf (pred t) = 0 := Fin.ext (by show (t.val - 1) % 2 = 0; omega)
  have hb1 : tileOf t = 1 := Fin.ext (by show t.val % 2 = 1; exact h1)
  rw [he, hb0, hb1]
  exact (Moe.out_eq_tiles (tokArr m c) (gateArr m c) (upArr m c) (downArr m c) (expertOf t) r h).symm

/-- Every entry of the result array lies in the slab some odd point writes back: expert `e`'s at point `2e + 1`. -/
theorem cover (i : S16x256x2048.Idx) :
    ∃ t : Fin cfg0.N, (cfg0.win 4).flush t = true ∧ i ∈ ((cfg0.win 4).blk t).view.set := by
  have hN : cfg0.N = 32 := N_0
  have hi0 : (i 0).val < 16 := (i 0).isLt
  have hi1 : (i 1).val < 256 := (i 1).isLt
  have hi2 : (i 2).val < 2048 := (i 2).isLt
  have ht : 2 * (i 0).val + 1 < cfg0.N := by omega
  refine ⟨⟨2 * (i 0).val + 1, ht⟩, (flush0_4 _).mpr (by show (2 * (i 0).val + 1) % 2 = 1; omega), ?_⟩
  obtain ⟨-, -, -, -, -, -, -, -, -, -, -, e0, e1, e2⟩ := idx_facts ⟨2 * (i 0).val + 1, ht⟩
  have e0' : win0_4.index ⟨2 * (i 0).val + 1, ht⟩ (0 : Fin 3) = (2 * (i 0).val + 1) / 2 := e0
  show i ∈ ((View.whole main_v0).slice (win0_4.rect ⟨2 * (i 0).val + 1, ht⟩)).set
  rw [View.set_slice_whole, Rect.mem_set_unit]
  intro a
  match a with
  | ⟨0, _⟩ => show win0_4.index ⟨2 * (i 0).val + 1, ht⟩ (0 : Fin 3) * 1 ≤ (i 0).val ∧ (i 0).val < win0_4.index ⟨2 * (i 0).val + 1, ht⟩ (0 : Fin 3) * 1 + 1; omega
  | ⟨1, _⟩ => show win0_4.index ⟨2 * (i 0).val + 1, ht⟩ (1 : Fin 3) * 256 ≤ (i 1).val ∧ (i 1).val < win0_4.index ⟨2 * (i 0).val + 1, ht⟩ (1 : Fin 3) * 256 + 256; omega
  | ⟨2, _⟩ => show win0_4.index ⟨2 * (i 0).val + 1, ht⟩ (2 : Fin 3) * 2048 ≤ (i 2).val ∧ (i 2).val < win0_4.index ⟨2 * (i 0).val + 1, ht⟩ (2 : Fin 3) * 2048 + 2048; omega

/-- So the result array ends at the specification's array. -/
theorem final (c : Dev nD) : (dats m 0 c).arrAt 4 cfg0.N = result m c :=
  (dats m 0 c).arrAt_eq_of_cover 4 (result m c) (flushed_eq m c) cover

end AtIdeal

end Cert.KernelIdeal.Sweep

end
-- ==== Proof.KernelRun.lean ====
/-
  The kernel program's run, read: its result is the specification's array with the expert and token axes merged.

  After the grid the program reshapes the (16, 256, 2048) result array to (4096, 2048); the argument arrays are as
  they were.
-/
import proofs.«121653_j12223476924456_1_alg».proof.Proof.Sweep

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable (m : (ℓ : Loc nD τ sig) → Buf (Elt Ideal) ℓ) (ρ : Dev nD → PrngReg)

/-- The program's last line reshapes the result array. -/
theorem tail_eq (c : Dev nD) :
    Pipeline.afterTail₀ cfgs (dats m) 0 (V0 m) [hostOps1] c main_v1
      = shapeCast S4096x2048 (result m c) shapeCasts_S16x256x2048_S4096x2048 := by
  unfold Pipeline.afterTail₀
  show StableHlo.after hostOps1 _ (Proc.devRef .tc main_v1) = _
  after_results
  exact congrArg (fun v => shapeCast S4096x2048 v shapeCasts_S16x256x2048_S4096x2048)
    ((Pipeline.withArrays_arr spec0 launch0.win.arr_inj c _ _ 4).trans (final m c))

/-- The result buffer is neither scoped nor one of the grid's arrays: the run leaves it as the last line wrote it. -/
theorem result_mem : main_v1 ∈ Pipeline.restRefs sig (cfgs 0).spec :=
  Pipeline.mem_restRefs_of main_v1 rfl (fun w => by fin_cases w <;> decide)

/-- Every execution of the program ends with the result at the reshaped specification's array and the arguments kept. -/
theorem run : θ_run defs (onTc (τ := τ) (main (F := Ideal))) ⟨m, fun _ => 0, ρ⟩ fun r => ∀ c : Dev nD,
      r.2.mem ((c.tc : Thread nD τ).loc main_v1) = shapeCast S4096x2048 (result m c) shapeCasts_S16x256x2048_S4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v1 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Sweep

end
-- ==== Proof.RefValue.lean ====
/-
  The reference, read entry by entry: it is the gated feed-forward layer of the specification.

  The reference forms `w_gate[e] · xᵀ` and transposes it, where the specification forms `x · w_gate[e]ᵀ`: the same sums
  with the factors of each product exchanged. Its `silu` is spelt `g · (1 / (1 + exp(−g)))`, which is `g · logistic g`
  by the definition of the logistic function on the extended reals.
-/
import proofs.«121653_j12223476924456_1_alg».proof.Proof.Gen.ReferenceIdeal.Read
import proofs.«121653_j12223476924456_1_alg».proof.Proof.Spec
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Read

/-- The transposed projection at (e, t, i) is `Σ_k x t k · w e i k`. -/
theorem proj_eq (x : (⟨S256x2048, .f32⟩ : BufTy).Contents (Elt Ideal)) (w : (⟨S16x1024x2048, .f32⟩ : BufTy).Contents (Elt Ideal))
    (e : Fin 16) (t : Fin 256) (i : Fin 1024) :
    val_main_v1 (F := Ideal) x w (ix3 e t i) = Moe.proj x w e t i := by
  rw [val_main_v1_apply, val_main_v0_apply]
  unfold Moe.proj
  refine Finset.sum_congr rfl fun k _ => ?_
  have hl : lidx_main_v0 (idx_main_v1 (ix3 e t i)) k = ix3 e i k := funext fun a => Fin.ext (by
    match a with
    | ⟨0, _⟩ => rfl
    | ⟨1, _⟩ => rfl
    | ⟨2, _⟩ => rfl)
  have hr : ridx_main_v0 (idx_main_v1 (ix3 e t i)) k = ix2 t k := funext fun a => Fin.ext (by
    match a with
    | ⟨0, _⟩ => rfl
    | ⟨1, _⟩ => rfl)
  rw [hl, hr]
  exact mul_comm _ _

/-- The up projection is computed by the same operations as the gate projection. -/
theorem up_eq (x : (⟨S256x2048, .f32⟩ : BufTy).Contents (Elt Ideal)) (w : (⟨S16x1024x2048, .f32⟩ : BufTy).Contents (Elt Ideal)) :
    val_main_v3 (F := Ideal) x w = val_main_v1 (F := Ideal) x w := rfl

/-- The gated activation at (e, t, i). -/
theorem hidden_eq (x : (⟨S256x2048, .f32⟩ : BufTy).Contents (Elt Ideal)) (wg wu : (⟨S16x1024x2048, .f32⟩ : BufTy).Contents (Elt Ideal))
    (e : Fin 16) (t : Fin 256) (i : Fin 1024) :
    val_main_v5 (F := Ideal) x wg wu (ix3 e t i) = Moe.hidden x wg wu e t i := by
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    up_eq, proj_eq, proj_eq]
  simp only [Ideal.mulf_def, Ideal.hostDivf_def, Ideal.addf_def, Ideal.hostUnary_exp_def, Ideal.hostNegf_def, Ideal.negf_def,
    Ideal.ofBits_def, Ideal.ofBits_one_f32]
  rfl

/-- The reference's result before its final reshape is the specification's array. -/
theorem out_eq (x : (⟨S256x2048, .f32⟩ : BufTy).Contents (Elt Ideal)) (wg wu : (⟨S16x1024x2048, .f32⟩ : BufTy).Contents (Elt Ideal))
    (wd : (⟨S16x2048x1024, .f32⟩ : BufTy).Contents (Elt Ideal)) :
    val_main_v6 (F := Ideal) x wg wu wd = Moe.outArr x wg wu wd := by
  funext j
  obtain ⟨e, t, h, rfl⟩ : ∃ (e : Fin 16) (t : Fin 256) (h : Fin 2048), j = ix3 e t h := ⟨j 0, j 1, j 2, eq_ix3 j⟩
  rw [val_main_v6_apply]
  show _ = Moe.out x wg wu wd e t h
  unfold Moe.out
  refine Finset.sum_congr rfl fun i _ => ?_
  have hl : lidx_main_v6 (ix3 e t h) i = ix3 e t i := funext fun a => Fin.ext (by
    match a with
    | ⟨0, _⟩ => rfl
    | ⟨1, _⟩ => rfl
    | ⟨2, _⟩ => rfl)
  have hr : ridx_main_v6 (ix3 e t h) i = ix3 e h i := funext fun a => Fin.ext (by
    match a with
    | ⟨0, _⟩ => rfl
    | ⟨1, _⟩ => rfl
    | ⟨2, _⟩ => rfl)
  rw [hl, hr, hidden_eq]

end Cert.ReferenceIdeal.RefValue

end
-- ==== Proof.lean ====
/-
  A mixture-of-experts feed-forward layer: the kernel and its reference compute the same array over the extended reals.

  For each of 16 experts and each of 256 tokens the layer is `out = (gate · logistic(gate) · up) · w_downᵀ` with
  `gate = x · w_gateᵀ` and `up = x · w_upᵀ`. The kernel walks the 1024 hidden columns of an expert in two tiles of 512,
  adding each tile's product into a zeroed running sum, and writes the expert's slab back after the second tile; the
  reference contracts all 1024 columns at once. Addition of extended reals is commutative and associative with unit
  zero, so `(0 + tile₀) + tile₁` is the whole contraction; the products' factors are exchanged by commutativity of
  multiplication; the reference's `1 / (1 + exp(−g))` is the logistic function by definition. Both programs end with the
  same reshape of the (16, 256, 2048) array to (4096, 2048). No finiteness of the inputs is used.

  The three frame claims are the generated frames (the reference's is its generated run with the result dropped);
  the idealization rewrote nothing, so its claim is trivial.
-/
import proofs.«121653_j12223476924456_1_alg».proof.Defs
import proofs.«121653_j12223476924456_1_alg».proof.Proof.Gen.Kernel
import proofs.«121653_j12223476924456_1_alg».proof.Proof.Gen.Kernel.Skeleton
import proofs.«121653_j12223476924456_1_alg».proof.Proof.Gen.Kernel.Launch
import proofs.«121653_j12223476924456_1_alg».proof.Proof.Gen.Kernel.Points
import proofs.«121653_j12223476924456_1_alg».proof.Proof.Gen.Kernel.Frame
import proofs.«121653_j12223476924456_1_alg».proof.Proof.Gen.KernelIdeal
import proofs.«121653_j12223476924456_1_alg».proof.Proof.Gen.KernelIdeal.Skeleton
import proofs.«121653_j12223476924456_1_alg».proof.Proof.Gen.KernelIdeal.Launch
import proofs.«121653_j12223476924456_1_alg».proof.Proof.Gen.KernelIdeal.Points
import proofs.«121653_j12223476924456_1_alg».proof.Proof.Gen.KernelIdeal.Frame
import proofs.«121653_j12223476924456_1_alg».proof.Proof.Gen.ReferenceIdeal
import proofs.«121653_j12223476924456_1_alg».proof.Proof.Gen.Pre_finite_inputs
import proofs.«121653_j12223476924456_1_alg».proof.Proof.Gen.ReferenceIdeal.Run
import proofs.«121653_j12223476924456_1_alg».proof.Proof.Gen.ReferenceIdeal.Read
import proofs.«121653_j12223476924456_1_alg».proof.Proof.KernelRun
import proofs.«121653_j12223476924456_1_alg».proof.Proof.RefValue
import Idealize.ShloMosaic.Adequacy
import Idealize.ShloMosaic.Init

noncomputable section

namespace Cert.Proof

open Idealize.ShloMosaic Idealize.SL.Sem

/-- Both programs end, from memories that agree on the four arguments, with the reshaped array of the specification:
    the kernel's run read off its grid, the reference's run read one operation at a time. -/
theorem algebraic : Cert.algebraic_KernelIdeal_ReferenceIdeal := by
  intro m ρ m' ρ' _ hagree
  refine ⟨fun c => shapeCast Cert.KernelIdeal.S4096x2048 (Cert.KernelIdeal.Sweep.result m c) Cert.KernelIdeal.Gen.shapeCasts_S16x256x2048_S4096x2048,
    Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefValue.out_eq, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
